-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16x2048x2048 : Shape := ⟨3, ![16, 2048, 2048]⟩
abbrev S16x1024x2048 : Shape := ⟨3, ![16, 1024, 2048]⟩
abbrev S16 : Shape := ⟨1, ![16]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S16x1024x2048 : S_.BroadcastsInDim S16x1024x2048 (![] : Fin 0 → Fin S16x1024x2048.rank)
  reducesTo_S16x1024x2048_S_d0_1_2 : S16x1024x2048.ReducesTo [0, 1, 2] S_

variable [Facts]

def fn {F : FTy → Type} [FloatOps F] (main_arg0 : FVec F S16384x2048 .f32) (main_arg1 : FVec F S16x2048x2048 .f32) (main_arg2 : FVec F S16x1024x2048 .f32) (main_arg3 : IVec S16 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S16x1024x2048 .f32 := Host.absf main_arg2
  let main_cst_2 : FVec F S_ .f32 := constant S_ .f32 0x7F800000#32
  let main_v10 : FVec F S16x1024x2048 .f32 := broadcastInDim S16x1024x2048 ![] bcast_S_S16x1024x2048 main_cst_2
  let main_v11 : IVec S16x1024x2048 1 := cmpf .olt main_v9 main_v10
  let main_c_3 : IVec S_ 1 := constantI S_ 1 1#1
  let main_v12 : IVec S_ 1 := (fun x v => Host.reduce IntOp.andi x v reducesTo_S16x1024x2048_S_d0_1_2 h_S_) main_v11 main_c_3
  let main_v13 : IVec S_ 1 := andi main_v8 main_v12
  main_v13
-- ==== Kernel.lean ====
abbrev S16384x2048 : Shape := ⟨2, ![16384, 2048]⟩
abbrev S16x2048x2048 : Shape := ⟨3, ![16, 2048, 2048]⟩
abbrev S16x1024x2048 : Shape := ⟨3, ![16, 1024, 2048]⟩
abbrev S16 : Shape := ⟨1, ![16]⟩
abbrev S16384x1024 : Shape := ⟨2, ![16384, 1024]⟩
abbrev S256x2048 : Shape := ⟨2, ![256, 2048]⟩
abbrev S1x2048x2048 : Shape := ⟨3, ![1, 2048, 2048]⟩
abbrev S256x1024 : Shape := ⟨2, ![256, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16x2048x2048, .f32⟩
  | .hbm, ⟨2, _⟩ => ⟨S16x1024x2048, .f32⟩
  | .hbm, ⟨3, _⟩ => ⟨S16, .i32⟩
  | .hbm, ⟨4, _⟩ => ⟨S16384x1024, .bf16⟩
  | .hbm, ⟨5, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048x2048, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S1x1024x2048, .f32⟩
  | .local _ .vmem, ⟨8, _⟩ => ⟨S256x2048, .f32⟩
  | .local _ .vmem, ⟨9, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S256x2048_o0_0_S256x1024 : S256x2048.Slices ![0, 0] S256x1024
  slices_S256x2048_o0_1024_S256x1024 : S256x2048.Slices ![0, 1024] S256x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S256x1024_S256x1024 : S256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  dot_S256x2048_S2048x2048_S256x2048_1_1_0_0_n_n_wf : DotDims.WF S256x2048 S2048x2048 S256x2048 [1] [1] [0] [0] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S16x2048x2048.size a
  hwx0_1 : ∀ i : grid0.Coords, EltTy.bits .f32 = 32 ∨ (Rect.block (s := S16x2048x2048) S1x2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .bf16 = 32 ∨ (Rect.block (s := S16384x1024) S256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S16384x1024.size a
  hwx1_0 : ∀ i : grid1.Coords, EltTy.bits .bf16 = 32 ∨ (Rect.block (s := S16384x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024x2048.size a ≤ S16x1024x2048.size a
  hwx1_1 : ∀ i : grid1.Coords, EltTy.bits .f32 = 32 ∨ (Rect.block (s := S16x1024x2048) S1x1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S16384x2048.size a
  hwx1_2 : ∀ i : grid1.Coords, EltTy.bits .f32 = 32 ∨ (Rect.block (s := S16384x2048) S256x2048.size (cc1_transform_2 i) (hinb1_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S16x2048x2048 : Shape := ⟨3, ![16, 2048, 2048]⟩
abbrev S16x1024x2048 : Shape := ⟨3, ![16, 1024, 2048]⟩
abbrev S16 : Shape := ⟨1, ![16]⟩
abbrev S16x1024x1024 : Shape := ⟨3, ![16, 1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048x2048, .f32⟩
  | .hbm, ⟨2, _⟩ => ⟨S16x1024x2048, .f32⟩
  | .hbm, ⟨3, _⟩ => ⟨S16, .i32⟩
  | .hbm, ⟨4, _⟩ => ⟨S16x1024x2048, .f32⟩
  | .hbm, ⟨5, _⟩ => ⟨S16x1024x2048, .f32⟩
  | .hbm, ⟨6, _⟩ => ⟨S16x1024x1024, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S_, .f32⟩
  | .hbm, ⟨11, _⟩ => ⟨S16x1024x1024, .f32⟩
  | .hbm, ⟨12, _⟩ => ⟨S16x1024x1024, .f32⟩
  | .hbm, ⟨13, _⟩ => ⟨S_, .f32⟩
  | .hbm, ⟨14, _⟩ => ⟨S16x1024x1024, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | .hbm, ⟨18, _⟩ => ⟨S16x1024x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S16x1024x2048 : S16384x2048.ShapeCasts S16x1024x2048
  slices_S16x1024x2048_S16x1024x1024_0_0_0 : S16x1024x2048.Slices ![0, 0, 0] S16x1024x1024
  slices_S16x1024x2048_S16x1024x1024_0_0_1024 : S16x1024x2048.Slices ![0, 0, 1024] S16x1024x1024
  bcast_S_S16x1024x1024 : S_.BroadcastsInDim S16x1024x1024 (![] : Fin 0 → Fin S16x1024x1024.rank)
  shapeCasts_S16x1024x2048_S16384x2048 : S16x1024x2048.ShapeCasts S16384x2048
  dot_S16x1024x2048_S16x2048x2048_S16x1024x2048_2_2_1_1_0_0_wf : DotDims.WF S16x1024x2048 S16x2048x2048 S16x1024x2048 [2] [2] [1] [1] [0] [0]
  dot_S16x1024x1024_S16x1024x2048_S16x1024x2048_2_1_1_2_0_0_wf : DotDims.WF S16x1024x1024 S16x1024x2048 S16x1024x2048 [2] [1] [1] [2] [0] [0]

variable [Facts₀]

def dot_S16x1024x2048_S16x2048x2048_S16x1024x2048_2_2_1_1_0_0 : DotDims S16x1024x2048 S16x2048x2048 S16x1024x2048 where
  lhsContracting := [2]
  rhsContracting := [2]
  lhsNonContracting := [1]
  rhsNonContracting := [1]
  lhsBatch := [0]
  rhsBatch := [0]
  wf := dot_S16x1024x2048_S16x2048x2048_S16x1024x2048_2_2_1_1_0_0_wf
def dot_S16x1024x1024_S16x1024x2048_S16x1024x2048_2_1_1_2_0_0 : DotDims S16x1024x1024 S16x1024x2048 S16x1024x2048 where
  lhsContracting := [2]
  rhsContracting := [1]
  lhsNonContracting := [1]
  rhsNonContracting := [2]
  lhsBatch := [0]
  rhsBatch := [0]
  wf := dot_S16x1024x1024_S16x1024x2048_S16x1024x2048_2_1_1_2_0_0_wf

class Facts : Prop extends Facts₀ where

variable [Facts]
-- ==== Proof.Spec.lean ====
/-
  The function both programs compute, over the extended reals.

  There are 16384 tokens of width 2048, sorted by expert: token `n` belongs to expert `n / 1024`. Each expert has an
  up-gate matrix of 2048 rows (the first 1024 the "up" rows, the last 1024 the "gate" rows) over width 2048, and a down
  matrix of 1024 rows over width 2048.

  * `proj x wug n j` is the inner product of token `n` with row `j` of its expert's up-gate matrix.
  * `hiddenAt x wug n j` (for `j < 1024`) is `up · (gate · σ(gate))` with `up = proj n j`, `gate = proj n (1024 + j)` and
    `σ` the logistic function `1 / (1 + e^(-g))`.
  * `downArr h wd` at `(n, d)` is the inner product of row `n` of `h` with column `d` of expert `n / 1024`'s down matrix.

  The result is `downArr (hiddenArr x wug) wd`. No step of either program regroups a product over a sum, so the two sides
  are joined by re-indexing finite sums only; finiteness of the inputs is never used.
-/
import Idealize.ShloMosaic.PureOps.Ideal
import Idealize.ShloMosaic.Lib.ValueIdx

noncomputable section

namespace Cert.Spec

open Idealize.ShloMosaic Idealize.ShloMosaic.ValueIdx

/-- tokens × model width -/
abbrev STok : Shape := ⟨2, ![16384, 2048]⟩
/-- experts × (up rows then gate rows) × model width -/
abbrev SUpGate : Shape := ⟨3, ![16, 2048, 2048]⟩
/-- experts × hidden width × model width -/
abbrev SDown : Shape := ⟨3, ![16, 1024, 2048]⟩
/-- tokens × hidden width -/
abbrev SHid : Shape := ⟨2, ![16384, 1024]⟩

/-- The expert a token belongs to: tokens are sorted by expert, 1024 to each. -/
abbrev expertOf (n : Fin 16384) : Fin 16 := ⟨n.val / 1024, by have := n.isLt; omega⟩

/-- Token `n` against row `j` of its expert's up-gate matrix. -/
def proj (x : STok.Idx → EReal) (wug : SUpGate.Idx → EReal) (n : Fin 16384) (j : Fin 2048) : EReal :=
  ∑ k : Fin 2048, x (ix2 n k) * wug (ix3 (expertOf n) j k)

/-- `proj` depends on its token and its row only through their values. -/
theorem proj_congr (x : STok.Idx → EReal) (wug : SUpGate.Idx → EReal) {n n' : Fin 16384} {j j' : Fin 2048}
    (hn : n.val = n'.val) (hj : j.val = j'.val) : proj x wug n j = proj x wug n' j' := by
  obtain rfl : n = n' := Fin.ext hn
  obtain rfl : j = j' := Fin.ext hj
  rfl

/-- The gated unit: `u · (g · σ(g))`. -/
def swiglu (u g : EReal) : EReal := u * (g * Ideal.logistic g)

/-- The up row `j` of a token, times the gated gate row `1024 + j`. -/
def hiddenAt (x : STok.Idx → EReal) (wug : SUpGate.Idx → EReal) (n : Fin 16384) (j : Fin 1024) : EReal :=
  swiglu (proj x wug n ⟨j.val, by have := j.isLt; omega⟩) (proj x wug n ⟨1024 + j.val, by have := j.isLt; omega⟩)

/-- The hidden activations as an array. -/
def hiddenArr (x : STok.Idx → EReal) (wug : SUpGate.Idx → EReal) : SHid.Idx → EReal :=
  fun i => hiddenAt x wug ⟨(i 0).val, idx2_lt0 i⟩ ⟨(i 1).val, idx2_lt1 i⟩

/-- Row `n` of the hidden array against column `d` of the token's expert's down matrix. -/
def downArr (h : SHid.Idx → EReal) (wd : SDown.Idx → EReal) : STok.Idx → EReal :=
  fun i => ∑ k : Fin 1024, h (ix2 ⟨(i 0).val, idx2_lt0 i⟩ k) * wd (ix3 (expertOf ⟨(i 0).val, idx2_lt0 i⟩) k ⟨(i 1).val, idx2_lt1 i⟩)

end Cert.Spec

end
-- ==== Proof.UpGateBody.lean ====
/-
  What the first kernel's body stores, index by index, at the ideal values.

  The body multiplies its 256 × 2048 block of tokens by the transpose of the expert's 2048 × 2048 up-gate matrix (a
  change of float format is the identity here, and the product starts from a zero accumulator, so entry `(p, r)` is the
  plain sum over `k` of `x (p, k) · w (r, k)`), cuts the product into its left half (the up rows) and its right half
  (the gate rows), and stores `up · (gate · σ(gate))`.

  `block_hidden`: if the token block is rows `b · 256 …` of the token array and the weight block is expert `b / 4`'s
  matrix, the stored entry `(p, q)` is the hidden activation of token `b · 256 + p` at `q`.
-/
import proofs.«146773_j10024453669615_1_alg».proof.Proof.Gen.KernelIdeal.Skeleton
import proofs.«146773_j10024453669615_1_alg».proof.Proof.Spec
import Idealize.ShloMosaic.Lib.Pipeline.Value
import Idealize.ShloMosaic.Lib.ValueIdx
import Idealize.ShloMosaic.PureOps.Ideal.Laws

noncomputable section

namespace Cert.KernelIdeal.UpGate

open Cert.KernelIdeal Cert.KernelIdeal.Gen Cert.Spec
open Idealize.ShloMosaic Idealize.ShloMosaic.ValueIdx

/-! ## The product's operand indices, axis by axis -/

theorem lhs_axis0 (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
theorem lhs_axis1 (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
theorem rhs_axis0 (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
theorem rhs_axis1 (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-! ## The product at an index -/

/-- Entry `(p, r)` of the block's product with the transposed weight: the sum over the width of token row `p` against
    weight row `r`. -/
theorem product_apply (x0 : Vec Ideal S256x2048 .f32) (x1 : Vec Ideal S1x2048x2048 .f32)
    (hb : FTy.bits .bf16 < FTy.bits .f32) (hc : S1x2048x2048.ShapeCasts S2048x2048) (p : Fin 256) (r : Fin 2048) :
    matmul dot_S256x2048_S2048x2048_S256x2048_1_1_0_0_n_n none (truncf .bf16 x0 hb) (truncf .bf16 (shapeCast S2048x2048 x1 hc) hb)
        (constant (F := Ideal) S256x2048 .f32 0x00000000#32) (ix2 p r)
      = ∑ k : Fin 2048, x0 (ix2 p k) * x1 (ix3 (0 : Fin 1) r k) := by
  show FloatOps.matmul dot_S256x2048_S2048x2048_S256x2048_1_1_0_0_n_n none _ _ (constant (F := Ideal) S256x2048 .f32 0x00000000#32) (ix2 p r) = _
  rw [Ideal.matmul_constant_zero_apply, ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p r) ((contrEquiv1 dot_S256x2048_S2048x2048_S256x2048_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x2048_S256x2048_1_1_0_0_n_n.rhsIdx (ix2 p r) ((contrEquiv1 dot_S256x2048_S2048x2048_S256x2048_1_1_0_0_n_n 2048 rfl rfl).symm k) = ix2 r k := funext fun a => Fin.ext (by
    match a with
    | ⟨0, _⟩ => exact rhs_axis0 _ _
    | ⟨1, _⟩ => exact (rhs_axis1 _ _).trans hk)
  rw [el, er]
  have ec : shapeCast S2048x2048 x1 hc (ix2 r k) = x1 (ix3 (0 : Fin 1) r k) :=
    shapeCast_apply x1 hc (ix2 r k) (ix3 (0 : Fin 1) r k)
      (by rewrite [Shape.rowMajor_val_three, Shape.rowMajor_val_two]; show (0 * 2048 + r.val) * 2048 + k.val = r.val * 2048 + k.val; omega)
  show x0 (ix2 p k) * shapeCast S2048x2048 x1 hc (ix2 r k) = _
  rw [ec]

/-! ## The gated halves -/

/-- The stored entry `(p, q)` from the product `M`: its left half at `q` times the gated right half at `q`. -/
theorem gated_apply (M : FVec Ideal S256x2048 .f32) (hb : FTy.bits .bf16 < FTy.bits .f32)
    (hs0 : S256x2048.Slices ![0, 0] S256x1024) (hs1 : S256x2048.Slices ![0, 1024] S256x1024) (p : Fin 256) (q : Fin 1024) :
    truncf .bf16 (mulf (extractStridedSlice S256x1024 ![0, 0] M hs0)
        (mulf (extractStridedSlice S256x1024 ![0, 1024] M hs1) (logistic (extractStridedSlice S256x1024 ![0, 1024] M hs1)))) hb (ix2 p q)
      = swiglu (M (ix2 p ⟨q.val, by have := q.isLt; omega⟩)) (M (ix2 p ⟨1024 + q.val, by have := q.isLt; omega⟩)) := by
  have eu := extractStridedSlice_apply ![0, 0] M hs0 (ix2 p q) (ix2 p ⟨q.val, by have := q.isLt; omega⟩) (fun a => match a with
    | ⟨0, _⟩ => by show p.val = 0 + p.val; omega
    | ⟨1, _⟩ => by show q.val = 0 + q.val; omega)
  have eg := extractStridedSlice_apply ![0, 1024] M hs1 (ix2 p q) (ix2 p ⟨1024 + q.val, by have := q.isLt; omega⟩) (fun a => match a with
    | ⟨0, _⟩ => by show p.val = 0 + p.val; omega
    | ⟨1, _⟩ => by show 1024 + q.val = 1024 + q.val; rfl)
  rw [← eu, ← eg]
  rfl

/-! ## The body's stored block -/

/-- The stored entry `(p, q)` from the two loaded blocks: up row `q` times the gated gate row `1024 + q` of token row `p`. -/
theorem pay_apply (x0 : Vec Ideal S256x2048 .f32) (x1 : Vec Ideal S1x2048x2048 .f32) (p : Fin 256) (q : Fin 1024) :
    k0_pay1 (F := Ideal) x0 x1 (ix2 p q)
      = swiglu (∑ k : Fin 2048, x0 (ix2 p k) * x1 (ix3 (0 : Fin 1) ⟨q.val, by have := q.isLt; omega⟩ k))
          (∑ k : Fin 2048, x0 (ix2 p k) * x1 (ix3 (0 : Fin 1) ⟨1024 + q.val, by have := q.isLt; omega⟩ k)) := by
  unfold k0_pay1
  refine (gated_apply _ _ _ _ p q).trans ?_
  exact congrArg₂ swiglu (product_apply x0 x1 _ _ p _) (product_apply x0 x1 _ _ p _)

/-- If the token block is block `b` of the token array `X` (rows `b · 256 …`) and the weight block is expert `b / 4`'s
    up-gate matrix of `W`, the stored entry `(p, q)` is the hidden activation of token `b · 256 + p` at `q`. -/
theorem block_hidden (X : STok.Idx → EReal) (W : SUpGate.Idx → EReal) (x0 : Vec Ideal S256x2048 .f32) (x1 : Vec Ideal S1x2048x2048 .f32)
    (b : Nat) (hb : b < 64)
    (h0 : ∀ (p : Fin 256) (k : Fin 2048), x0 (ix2 p k) = X (ix2 ⟨b * 256 + p.val, by have := p.isLt; omega⟩ k))
    (h1 : ∀ (r k : Fin 2048), x1 (ix3 (0 : Fin 1) r k) = W (ix3 ⟨b / 4, by omega⟩ r k))
    (p : Fin 256) (q : Fin 1024) :
    k0_pay1 (F := Ideal) x0 x1 (ix2 p q) = hiddenAt X W ⟨b * 256 + p.val, by have := p.isLt; omega⟩ q := by
  have hp : p.val < 256 := p.isLt
  rw [pay_apply]
  unfold hiddenAt proj
  refine congrArg₂ swiglu (Finset.sum_congr rfl fun k _ => ?_) (Finset.sum_congr rfl fun k _ => ?_)
  · rw [h0, h1]
    exact congrArg (fun e => X (ix2 _ k) * W (ix3 e _ k)) (Fin.ext (by show b / 4 = (b * 256 + p.val) / 1024; omega))
  · rw [h0, h1]
    exact congrArg (fun e => X (ix2 _ k) * W (ix3 e _ k)) (Fin.ext (by show b / 4 = (b * 256 + p.val) / 1024; omega))

end Cert.KernelIdeal.UpGate

end
-- ==== Proof.UpGateArray.lean ====
/-
  The hidden array after the first kernel's 64 grid points.

  Point `t` of the 16 × 4 grid reads token rows `t · 256 …` and expert `t / 4`'s up-gate matrix, and writes back rows
  `t · 256 …` of the hidden array. The 64 blocks of 256 rows tile the 16384 rows, so after the last point every entry
  `(n, q)` of the hidden array holds the hidden activation of token `n` at `q`, computed from the arrays the kernel was
  entered with.
-/
import proofs.«146773_j10024453669615_1_alg».proof.Proof.Gen.KernelIdeal.Frame
import proofs.«146773_j10024453669615_1_alg».proof.Proof.UpGateBody

set_option maxRecDepth 16384

noncomputable section

namespace Cert.KernelIdeal.UpGate

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at point `t`, decided over the grid: the token block and the written block are block `t`, the
    weight block is expert `t / 4`'s. -/
theorem block_indices : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0 :=
  (by decide +kernel : ∀ t : Fin grid0.N, _)

theorem point_lt (t : Fin cfg0.N) : t.val < 64 := lt_of_lt_of_eq t.isLt N_0

/-- What point `t` writes back is block `t` of the hidden array of the arrays the kernel was entered with. -/
theorem flushed_eq (c : Dev nD) (t : Fin cfg0.N) :
    (dat0 V c).flushed 2 t = ((cfg0.win 2).blk t).view.read (Elt Ideal) (hiddenArr (V c main_arg0) (V c main_arg1)) := by
  show (cfg0.win 2).cut (grid0.coords t) ((dat0 V c).after 2 t) = _
  rw [after0_2]
  unfold out0_2
  rw [View.canon_unit_zero zero2]
  simp only [View.ld_unit_zero (S := S256x2048) zero2, View.ld_unit_zero (S := S1x2048x2048) zero3]
  obtain ⟨e0, e1, e2, e3, e4, e5, e6⟩ := block_indices t
  have ht := point_lt t
  funext j
  obtain ⟨p, q, rfl⟩ : ∃ (p : Fin 256) (q : Fin 1024), j = ix2 p q := ⟨j 0, j 1, eq_ix2 j⟩
  have hp : p.val < 256 := p.isLt
  have hq : q.val < 1024 := q.isLt
  show k0_pay1 (iblk0 V c 0 t) (iblk0 V c 1 t) (ix2 p q)
    = hiddenArr (V c main_arg0) (V c main_arg1) (((cfg0.win 2).blk t).view.emb (ix2 p q))
  refine (block_hidden (V c main_arg0) (V c main_arg1) (iblk0 V c 0 t) (iblk0 V c 1 t) t.val ht ?_ ?_ p q).trans ?_
  · intro p k
    have hp : p.val < 256 := p.isLt
    have hk : k.val < 2048 := k.isLt
    have e : ((cfg0.win 0).blk t).view.emb (ix2 p k) = (ix2 (⟨t.val * 256 + p.val, by omega⟩ : Fin 16384) k : S16384x2048.Idx) := by
      funext a; apply Fin.ext
      match a with
      | ⟨0, _⟩ => show win0_0.index t (0 : Fin 2) * 256 + 1 * p.val = t.val * 256 + p.val; omega
      | ⟨1, _⟩ => show win0_0.index t (1 : Fin 2) * 2048 + 1 * k.val = k.val; omega
    show V c main_arg0 (((cfg0.win 0).blk t).view.emb (ix2 p k)) = _
    rw [e]
  · intro r k
    have hr : r.val < 2048 := r.isLt
    have hk : k.val < 2048 := k.isLt
    have e : ((cfg0.win 1).blk t).view.emb (ix3 (0 : Fin 1) r k) = (ix3 (⟨t.val / 4, by omega⟩ : Fin 16) r k : S16x2048x2048.Idx) := by
      funext a; apply Fin.ext
      match a with
      | ⟨0, _⟩ => show win0_1.index t (0 : Fin 3) * 1 + 1 * 0 = t.val / 4; omega
      | ⟨1, _⟩ => show win0_1.index t (1 : Fin 3) * 2048 + 1 * r.val = r.val; omega
      | ⟨2, _⟩ => show win0_1.index t (2 : Fin 3) * 2048 + 1 * k.val = k.val; omega
    show V c main_arg1 (((cfg0.win 1).blk t).view.emb (ix3 (0 : Fin 1) r k)) = _
    rw [e]
  · have e : (ix2 (⟨t.val * 256 + p.val, by omega⟩ : Fin 16384) q : S16384x1024.Idx) = ((cfg0.win 2).blk t).view.emb (ix2 p q) := by
      funext a; apply Fin.ext
      match a with
      | ⟨0, _⟩ => show t.val * 256 + p.val = win0_2.index t (0 : Fin 2) * 256 + 1 * p.val; omega
      | ⟨1, _⟩ => show q.val = win0_2.index t (1 : Fin 2) * 1024 + 1 * q.val; omega
    exact Eq.trans (show hiddenAt (V c main_arg0) (V c main_arg1) ⟨t.val * 256 + p.val, by omega⟩ q
        = hiddenArr (V c main_arg0) (V c main_arg1) (ix2 (⟨t.val * 256 + p.val, by omega⟩ : Fin 16384) q) from rfl)
      (congrArg (hiddenArr (V c main_arg0) (V c main_arg1)) e)

/-- An index of the hidden array is in point `t`'s block iff each coordinate is in the block's range on its axis. -/
theorem mem_blk (t : Fin cfg0.N) (i : S16384x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v0).slice (win0_2.rect t)).set ↔ _
  rw [View.set_slice_whole, Rect.mem_set_unit]
  exact Iff.rfl

/-- Every row of the hidden array is in the block of the point `row / 256`. -/
theorem cover (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 64 := N_0
  let t : Fin cfg0.N := ⟨(i 0).val / 256, by rw [hN]; omega⟩
  obtain ⟨e0, e1, -⟩ := block_indices t
  have tv : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The hidden array after the kernel: the hidden activations of the token and weight arrays it was entered with. -/
theorem final (c : Dev nD) : (dat0 V c).arrAt 2 cfg0.N = hiddenArr (V c main_arg0) (V c main_arg1) :=
  (dat0 V c).arrAt_eq_of_cover 2 (hiddenArr (V c main_arg0) (V c main_arg1)) (fun t _ => flushed_eq V c t) (cover)

end Cert.KernelIdeal.UpGate

end
-- ==== Proof.DownBody.lean ====
/-
  What the second kernel's body stores, index by index, at the ideal values.

  The body multiplies its 256 × 1024 block of hidden activations by the expert's 1024 × 2048 down matrix into a zero
  accumulator: entry `(p, d)` is the plain sum over `k` of `h (p, k) · w (k, d)`.

  `block_down`: if the activation block is rows `b · 256 …` of the hidden array and the weight block is expert `b / 4`'s
  down matrix, the stored entry `(p, d)` is the result at `(b · 256 + p, d)`.
-/
import proofs.«146773_j10024453669615_1_alg».proof.Proof.Gen.KernelIdeal.Skeleton
import proofs.«146773_j10024453669615_1_alg».proof.Proof.Spec
import Idealize.ShloMosaic.Lib.Pipeline.Value
import Idealize.ShloMosaic.Lib.ValueIdx
import Idealize.ShloMosaic.PureOps.Ideal.Laws

noncomputable section

namespace Cert.KernelIdeal.Down

open Cert.KernelIdeal Cert.KernelIdeal.Gen Cert.Spec
open Idealize.ShloMosaic Idealize.ShloMosaic.ValueIdx

/-! ## The product's operand indices, axis by axis -/

theorem lhs_axis0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem lhs_axis1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem rhs_axis0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem rhs_axis1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-! ## The body's stored block -/

/-- The stored entry `(p, d)` from the two loaded blocks: activation row `p` against weight column `d`. -/
theorem pay_apply (x0 : Vec Ideal S256x1024 .bf16) (x1 : Vec Ideal S1x1024x2048 .f32) (p : Fin 256) (d : Fin 2048) :
    k1_pay1 (F := Ideal) x0 x1 (ix2 p d) = ∑ k : Fin 1024, x0 (ix2 p k) * x1 (ix3 (0 : Fin 1) k d) := by
  unfold k1_pay1
  show FloatOps.matmul dot_S256x1024_S1024x2048_S256x2048_1_0_0_1_n_n none _ _ (constant (F := Ideal) S256x2048 .f32 0x00000000#32) (ix2 p d) = _
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p d) ((contrEquiv1 dot_S256x1024_S1024x2048_S256x2048_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x2048_S256x2048_1_0_0_1_n_n.rhsIdx (ix2 p d) ((contrEquiv1 dot_S256x1024_S1024x2048_S256x2048_1_0_0_1_n_n 1024 rfl rfl).symm k) = ix2 k d := funext fun a => Fin.ext (by
    match a with
    | ⟨0, _⟩ => exact (rhs_axis0 _ _).trans hk
    | ⟨1, _⟩ => exact rhs_axis1 _ _)
  rw [el, er, shapeCast_self]
  have ec : shapeCast S1024x2048 x1 shapeCasts_S1x1024x2048_S1024x2048 (ix2 k d) = x1 (ix3 (0 : Fin 1) k d) :=
    shapeCast_apply x1 shapeCasts_S1x1024x2048_S1024x2048 (ix2 k d) (ix3 (0 : Fin 1) k d)
      (by rewrite [Shape.rowMajor_val_three, Shape.rowMajor_val_two]; show (0 * 1024 + k.val) * 2048 + d.val = k.val * 2048 + d.val; omega)
  show x0 (ix2 p k) * shapeCast S1024x2048 x1 shapeCasts_S1x1024x2048_S1024x2048 (ix2 k d) = _
  rw [ec]

/-- If the activation block is block `b` of the hidden array `Hh` (rows `b · 256 …`) and the weight block is expert
    `b / 4`'s down matrix of `Wd`, the stored entry `(p, d)` is the result at `(b · 256 + p, d)`. -/
theorem block_down (Hh : SHid.Idx → EReal) (Wd : SDown.Idx → EReal) (x0 : Vec Ideal S256x1024 .bf16) (x1 : Vec Ideal S1x1024x2048 .f32)
    (b : Nat) (hb : b < 64)
    (h0 : ∀ (p : Fin 256) (k : Fin 1024), x0 (ix2 p k) = Hh (ix2 ⟨b * 256 + p.val, by have := p.isLt; omega⟩ k))
    (h1 : ∀ (k : Fin 1024) (d : Fin 2048), x1 (ix3 (0 : Fin 1) k d) = Wd (ix3 ⟨b / 4, by omega⟩ k d))
    (p : Fin 256) (d : Fin 2048) :
    k1_pay1 (F := Ideal) x0 x1 (ix2 p d) = downArr Hh Wd (ix2 ⟨b * 256 + p.val, by have := p.isLt; omega⟩ d) := by
  have hp : p.val < 256 := p.isLt
  rw [pay_apply]
  unfold downArr
  refine Finset.sum_congr rfl fun k _ => ?_
  rw [h0, h1]
  exact congrArg (fun e => Hh (ix2 _ k) * Wd (ix3 e k _)) (Fin.ext (by show b / 4 = (b * 256 + p.val) / 1024; omega))

end Cert.KernelIdeal.Down

end
-- ==== Proof.DownArray.lean ====
/-
  The result array after the second kernel's 64 grid points.

  Point `t` of the 16 × 4 grid reads rows `t · 256 …` of the hidden array and expert `t / 4`'s down matrix, and writes
  back rows `t · 256 …` of the result. The 64 blocks of 256 rows tile the 16384 rows, so after the last point every entry
  `(n, d)` of the result holds row `n` of the hidden array against column `d` of its expert's down matrix, computed from
  the arrays the kernel was entered with.
-/
import proofs.«146773_j10024453669615_1_alg».proof.Proof.Gen.KernelIdeal.Frame
import proofs.«146773_j10024453669615_1_alg».proof.Proof.DownBody

set_option maxRecDepth 16384

noncomputable section

namespace Cert.KernelIdeal.Down

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices at point `t`, decided over the grid: the activation block and the written block are block `t`,
    the weight block is expert `t / 4`'s. -/
theorem block_indices : ∀ t : Fin cfg1.N,
    win1_2.index t (0 : Fin 2) = t.val ∧ win1_2.index t (1 : Fin 2) = 0
    ∧ win1_0.index t (0 : Fin 2) = t.val ∧ win1_0.index t (1 : Fin 2) = 0
    ∧ win1_1.index t (0 : Fin 3) = t.val / 4 ∧ win1_1.index t (1 : Fin 3) = 0 ∧ win1_1.index t (2 : Fin 3) = 0 :=
  (by decide +kernel : ∀ t : Fin grid1.N, _)

theorem point_lt (t : Fin cfg1.N) : t.val < 64 := lt_of_lt_of_eq t.isLt N_1

/-- What point `t` writes back is block `t` of the down projection of the arrays the kernel was entered with. -/
theorem flushed_eq (c : Dev nD) (t : Fin cfg1.N) :
    (dat1 V c).flushed 2 t = ((cfg1.win 2).blk t).view.read (Elt Ideal) (downArr (V c main_v0) (V c main_arg2)) := by
  show (cfg1.win 2).cut (grid1.coords t) ((dat1 V c).after 2 t) = _
  rw [after1_2]
  unfold out1_2
  rw [View.canon_unit_zero zero2]
  simp only [View.ld_unit_zero (S := S256x1024) zero2, View.ld_unit_zero (S := S1x1024x2048) zero3]
  obtain ⟨e0, e1, e2, e3, e4, e5, e6⟩ := block_indices t
  have ht := point_lt t
  funext j
  obtain ⟨p, d, rfl⟩ : ∃ (p : Fin 256) (d : Fin 2048), j = ix2 p d := ⟨j 0, j 1, eq_ix2 j⟩
  have hp : p.val < 256 := p.isLt
  have hd : d.val < 2048 := d.isLt
  show k1_pay1 (iblk1 V c 0 t) (iblk1 V c 1 t) (ix2 p d)
    = downArr (V c main_v0) (V c main_arg2) (((cfg1.win 2).blk t).view.emb (ix2 p d))
  refine (block_down (V c main_v0) (V c main_arg2) (iblk1 V c 0 t) (iblk1 V c 1 t) t.val ht ?_ ?_ p d).trans ?_
  · intro p k
    have hp : p.val < 256 := p.isLt
    have hk : k.val < 1024 := k.isLt
    have e : ((cfg1.win 0).blk t).view.emb (ix2 p k) = (ix2 (⟨t.val * 256 + p.val, by omega⟩ : Fin 16384) k : S16384x1024.Idx) := by
      funext a; apply Fin.ext
      match a with
      | ⟨0, _⟩ => show win1_0.index t (0 : Fin 2) * 256 + 1 * p.val = t.val * 256 + p.val; omega
      | ⟨1, _⟩ => show win1_0.index t (1 : Fin 2) * 1024 + 1 * k.val = k.val; omega
    show V c main_v0 (((cfg1.win 0).blk t).view.emb (ix2 p k)) = _
    rw [e]
  · intro k d
    have hk : k.val < 1024 := k.isLt
    have hd : d.val < 2048 := d.isLt
    have e : ((cfg1.win 1).blk t).view.emb (ix3 (0 : Fin 1) k d) = (ix3 (⟨t.val / 4, by omega⟩ : Fin 16) k d : S16x1024x2048.Idx) := by
      funext a; apply Fin.ext
      match a with
      | ⟨0, _⟩ => show win1_1.index t (0 : Fin 3) * 1 + 1 * 0 = t.val / 4; omega
      | ⟨1, _⟩ => show win1_1.index t (1 : Fin 3) * 1024 + 1 * k.val = k.val; omega
      | ⟨2, _⟩ => show win1_1.index t (2 : Fin 3) * 2048 + 1 * d.val = d.val; omega
    show V c main_arg2 (((cfg1.win 1).blk t).view.emb (ix3 (0 : Fin 1) k d)) = _
    rw [e]
  · have e : (ix2 (⟨t.val * 256 + p.val, by omega⟩ : Fin 16384) d : S16384x2048.Idx) = ((cfg1.win 2).blk t).view.emb (ix2 p d) := by
      funext a; apply Fin.ext
      match a with
      | ⟨0, _⟩ => show t.val * 256 + p.val = win1_2.index t (0 : Fin 2) * 256 + 1 * p.val; omega
      | ⟨1, _⟩ => show d.val = win1_2.index t (1 : Fin 2) * 2048 + 1 * d.val; omega
    exact congrArg (downArr (V c main_v0) (V c main_arg2)) e

/-- An index of the result array is in point `t`'s block iff each coordinate is in the block's range on its axis. -/
theorem mem_blk (t : Fin cfg1.N) (i : S16384x2048.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v1).slice (win1_2.rect t)).set ↔ _
  rw [View.set_slice_whole, Rect.mem_set_unit]
  exact Iff.rfl

/-- Every row of the result array is in the block of the point `row / 256`. -/
theorem cover (i : S16384x2048.Idx) : ∃ t : Fin cfg1.N, (cfg1.win 2).flush t = true ∧ i ∈ ((cfg1.win 2).blk t).view.set := by
  have hi0 : (i 0).val < 16384 := (i 0).isLt
  have hi1 : (i 1).val < 2048 := (i 1).isLt
  have hN : cfg1.N = 64 := N_1
  let t : Fin cfg1.N := ⟨(i 0).val / 256, by rw [hN]; omega⟩
  obtain ⟨e0, e1, -⟩ := block_indices t
  have tv : t.val = (i 0).val / 256 := rfl
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega

/-- The result array after the kernel: the down projection of the hidden and weight arrays it was entered with. -/
theorem final (c : Dev nD) : (dat1 V c).arrAt 2 cfg1.N = downArr (V c main_v0) (V c main_arg2) :=
  (dat1 V c).arrAt_eq_of_cover 2 (downArr (V c main_v0) (V c main_arg2)) (fun t _ => flushed_eq V c t) (cover)

end Cert.KernelIdeal.Down

end
-- ==== Proof.KernelValue.lean ====
/-
  The two kernels composed: what the result array holds after the run.

  The second kernel is entered with the hidden array as the first kernel's write-backs left it and with the down
  matrices untouched since the launch (the first kernel does not name them). So the result array ends at the down
  projection of the hidden activations of the LAUNCHED token and up-gate arrays against the LAUNCHED down matrices:
  the specification of the three float arguments.
-/
import proofs.«146773_j10024453669615_1_alg».proof.Proof.KernelRun
import proofs.«146773_j10024453669615_1_alg».proof.Proof.UpGateArray
import proofs.«146773_j10024453669615_1_alg».proof.Proof.DownArray

set_option maxRecDepth 16384

noncomputable section

namespace Cert.KernelIdeal.Composed

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- The hidden array as the second kernel finds it: the hidden activations of the launched tokens and up-gate matrices. -/
theorem hidden_at_entry (c : Dev nD) :
    V1 m ρ c main_v0 = hiddenArr (m ((c.tc : Thread nD τ).loc main_arg0)) (m ((c.tc : Thread nD τ).loc main_arg1)) :=
  (W1_arr m ρ c 2).trans (UpGate.final (V0 m ρ) c)

/-- The down matrices as the second kernel finds them: as launched. -/
theorem down_at_entry (c : Dev nD) : V1 m ρ c main_arg2 = m ((c.tc : Thread nD τ).loc main_arg2) :=
  W1_of_ne m ρ c main_arg2 (by decide)

/-- The result array at the last boundary is the specification of the launched arguments. -/
theorem result_eq (c : Dev nD) :
    W2 m ρ c (Proc.devRef .tc main_v1)
      = downArr (hiddenArr (m ((c.tc : Thread nD τ).loc main_arg0)) (m ((c.tc : Thread nD τ).loc main_arg1))) (m ((c.tc : Thread nD τ).loc main_arg2)) :=
  ((W2_arr m ρ c 2).trans (Down.final (V1 m ρ) c)).trans (congrArg₂ downArr (hidden_at_entry m ρ c) (down_at_entry m ρ c))

/-- The run with the result array at the specification and the arguments unchanged. -/
theorem run : θ_run defs (onTc (τ := τ) (main (F := Ideal))) ⟨m, fun _ => 0, ρ⟩ (fun r => ∀ c : Dev nD,
      r.2.mem ((c.tc : Thread nD τ).loc main_v1)
        = downArr (hiddenArr (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Named.run_named (F := Ideal) m ρ)

end Cert.KernelIdeal.Composed

end
-- ==== Proof.RefValue.lean ====
/-
  The reference's result is the specification.

  The reference reshapes the tokens to [16, 1024, 2048] (expert, token within expert, width), takes a batched product with
  the up-gate matrices over the width, slices the result into its up half and its gate half, applies
  `g · (1 / (1 + e^(-g)))` to the gate half, multiplies, takes a batched product with the down matrices over the hidden
  width and reshapes back. Read at an index `(n, d)`: the reshape sends row `n` to `(n / 1024, n % 1024)`, so every batched
  product is the token's row against its own expert's matrix, and `1 / (1 + e^(-g))` is the logistic function by definition.
-/
import proofs.«146773_j10024453669615_1_alg».proof.Proof.Gen.ReferenceIdeal.Run
import proofs.«146773_j10024453669615_1_alg».proof.Proof.Gen.ReferenceIdeal.Read
import proofs.«146773_j10024453669615_1_alg».proof.Proof.Spec
import Idealize.ShloMosaic.Lib.IdealHost

noncomputable section

namespace Cert.ReferenceIdeal.RefValue

open Cert.ReferenceIdeal Cert.ReferenceIdeal.Gen Cert.ReferenceIdeal.Read Cert.Spec
open Idealize.ShloMosaic Idealize.ShloMosaic.ValueIdx

/-- The first batched product at `(e, t, j)`: token `e · 1024 + t` against row `j` of expert `e`'s up-gate matrix. -/
theorem upgate_apply (x0 : (⟨S16384x2048, .f32⟩ : BufTy).Contents (Elt Ideal)) (x1 : (⟨S16x2048x2048, .f32⟩ : BufTy).Contents (Elt Ideal))
    (j : S16x1024x2048.Idx) (n : Fin 16384) (r : Fin 2048) (hn : n.val = (j 0).val * 1024 + (j 1).val) (hr : r.val = (j 2).val) :
    val_main_v1 (F := Ideal) x0 x1 j = proj x0 x1 n r := by
  have h0 : (j 0).val < 16 := (j 0).isLt
  have h1 : (j 1).val < 1024 := (j 1).isLt
  rw [val_main_v1_apply]
  unfold proj
  refine Finset.sum_congr rfl fun k _ => ?_
  rw [val_main_v0_apply]
  have hk : k.val < 2048 := k.isLt
  have e1 : idx_main_v0 (lidx_main_v1 j k) = ix2 n k := funext fun a => Fin.ext (by
    match a with
    | ⟨0, _⟩ => show (((j 0).val * 1024 + (j 1).val) * 2048 + k.val) / 2048 = n.val; omega
    | ⟨1, _⟩ => show (((j 0).val * 1024 + (j 1).val) * 2048 + k.val) % 2048 = k.val; omega)
  have e2 : ridx_main_v1 j k = ix3 (expertOf n) r k := funext fun a => Fin.ext (by
    match a with
    | ⟨0, _⟩ => show (j 0).val = n.val / 1024; omega
    | ⟨1, _⟩ => show (j 2).val = r.val; omega
    | ⟨2, _⟩ => rfl)
  rw [e1, e2]

/-- The gated product at `(e, t, q)` is the hidden activation of token `e · 1024 + t` at `q`. -/
theorem hidden_apply (x0 : (⟨S16384x2048, .f32⟩ : BufTy).Contents (Elt Ideal)) (x1 : (⟨S16x2048x2048, .f32⟩ : BufTy).Contents (Elt Ideal))
    (j : S16x1024x1024.Idx) (n : Fin 16384) (q : Fin 1024) (hn : n.val = (j 0).val * 1024 + (j 1).val) (hq : q.val = (j 2).val) :
    val_main_v5 (F := Ideal) x0 x1 j = hiddenAt x0 x1 n q := by
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v2_apply, val_main_v3_apply]
  rw [upgate_apply x0 x1 (idx_main_v2 j) n ⟨q.val, by have := q.isLt; omega⟩ hn hq,
    upgate_apply x0 x1 (idx_main_v3 j) n ⟨1024 + q.val, by have := q.isLt; omega⟩ hn (by show 1024 + q.val = 1024 + (j 2).val; omega)]
  unfold hiddenAt swiglu
  simp only [Ideal.ofBits_def, Ideal.ofBits_one_f32, Ideal.mulf_def]
  rfl

/-- The reference's result array is the specification of its three float arguments. -/
theorem result_eq (x0 : (⟨S16384x2048, .f32⟩ : BufTy).Contents (Elt Ideal)) (x1 : (⟨S16x2048x2048, .f32⟩ : BufTy).Contents (Elt Ideal))
    (x2 : (⟨S16x1024x2048, .f32⟩ : BufTy).Contents (Elt Ideal)) :
    val_main_v7 (F := Ideal) x0 x1 x2 = downArr (hiddenArr x0 x1) x2 := by
  funext i
  have h0 : (i 0).val < 16384 := (i 0).isLt
  have h1 : (i 1).val < 2048 := (i 1).isLt
  rw [val_main_v7_apply, val_main_v6_apply]
  unfold downArr
  refine Finset.sum_congr rfl fun k _ => ?_
  have hk : k.val < 1024 := k.isLt
  have e2 : ridx_main_v6 (idx_main_v7 i) k = ix3 (expertOf ⟨(i 0).val, idx2_lt0 i⟩) k ⟨(i 1).val, idx2_lt1 i⟩ := funext fun a => Fin.ext (by
    match a with
    | ⟨0, _⟩ => show ((i 0).val * 2048 + (i 1).val) / 2097152 = (i 0).val / 1024; omega
    | ⟨1, _⟩ => rfl
    | ⟨2, _⟩ => show ((i 0).val * 2048 + (i 1).val) % 2048 = (i 1).val; omega)
  rw [e2, hidden_apply x0 x1 (lidx_main_v6 (idx_main_v7 i) k) ⟨(i 0).val, idx2_lt0 i⟩ k
    (by show (i 0).val = ((i 0).val * 2048 + (i 1).val) / 2097152 * 1024 + ((i 0).val * 2048 + (i 1).val) / 2048 % 1024; omega) rfl]
  rfl

end Cert.ReferenceIdeal.RefValue

end
-- ==== Proof.lean ====
/-
  The kernel computes a routed-experts feed-forward layer in two steps: for each of 16 experts and its 1024 tokens,
  `h = up · (gate · σ(gate))` where `[up | gate] = x · W_upgateᵀ`, then `out = h · W_down`. The reference computes the
  same as two batched products over the tokens reshaped by expert, with `σ(g)` spelt `1 / (1 + e^(-g))`.

  Over the extended reals both are one function of the three float arguments (Proof/Spec.lean): a change of float format
  is the identity, a product into a zero accumulator is the plain sum, and `1 / (1 + e^(-g))` is the logistic function by
  definition. The kernel side reads each kernel's written-back blocks as blocks of one whole array (Proof/UpGateArray.lean,
  Proof/DownArray.lean) and composes the two (Proof/KernelValue.lean); the reference side reads its run one operation at a
  time (Proof/RefValue.lean). No step regroups a product over a sum, so the precondition is never opened. The fourth
  argument (the per-expert token counts) is read by neither program. The idealization rewrote nothing, so `preserves` is
  trivial.
-/
import proofs.«146773_j10024453669615_1_alg».proof.Defs
import proofs.«146773_j10024453669615_1_alg».proof.Proof.Gen.Kernel
import proofs.«146773_j10024453669615_1_alg».proof.Proof.Gen.Kernel.Skeleton
import proofs.«146773_j10024453669615_1_alg».proof.Proof.Gen.Kernel.Launch
import proofs.«146773_j10024453669615_1_alg».proof.Proof.Gen.Kernel.Points
import proofs.«146773_j10024453669615_1_alg».proof.Proof.Gen.Kernel.Frame
import proofs.«146773_j10024453669615_1_alg».proof.Proof.Gen.KernelIdeal
import proofs.«146773_j10024453669615_1_alg».proof.Proof.Gen.KernelIdeal.Skeleton
import proofs.«146773_j10024453669615_1_alg».proof.Proof.Gen.KernelIdeal.Launch
import proofs.«146773_j10024453669615_1_alg».proof.Proof.Gen.KernelIdeal.Points
import proofs.«146773_j10024453669615_1_alg».proof.Proof.Gen.KernelIdeal.Frame
import proofs.«146773_j10024453669615_1_alg».proof.Proof.Gen.ReferenceIdeal
import proofs.«146773_j10024453669615_1_alg».proof.Proof.Gen.ReferenceIdeal.Run
import proofs.«146773_j10024453669615_1_alg».proof.Proof.Gen.ReferenceIdeal.Read
import proofs.«146773_j10024453669615_1_alg».proof.Proof.Gen.Pre_finite_inputs
import proofs.«146773_j10024453669615_1_alg».proof.Proof.KernelValue
import proofs.«146773_j10024453669615_1_alg».proof.Proof.RefValue
import Idealize.ShloMosaic.Adequacy
import Idealize.ShloMosaic.Init

noncomputable section

namespace Cert.Proof

open Idealize.ShloMosaic Idealize.SL.Sem

/-- The word-level kernel runs and keeps its arguments: the generated frame of its two regions. -/
theorem frame_k : Cert.frame_Kernel := fun m ρ _ => Cert.Kernel.Gen.frame m ρ

/-- The same at the ideal values. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the specification of arguments that agree. -/
theorem algebraic : Cert.algebraic_KernelIdeal_ReferenceIdeal := by
  intro m ρ m' ρ' _ hagree
  refine ⟨_, Cert.KernelIdeal.Composed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
